-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x64x1024 : Shape := ⟨3, ![2048, 64, 1024]⟩
abbrev S2x1024 : Shape := ⟨2, ![2, 1024]⟩
abbrev S64 : Shape := ⟨1, ![64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2048x64x1024 : S_.BroadcastsInDim S2048x64x1024 (![] : Fin 0 → Fin S2048x64x1024.rank)
  reducesTo_S2048x64x1024_S_d0_1_2 : S2048x64x1024.ReducesTo [0, 1, 2] S_
  bcast_S_S2x1024 : S_.BroadcastsInDim S2x1024 (![] : Fin 0 → Fin S2x1024.rank)
  reducesTo_S2x1024_S_d0_1 : S2x1024.ReducesTo [0, 1] S_

variable [Facts]

def fn {F : FTy → Type} [FloatOps F] (main_arg0 : FVec F S2048x64 .f32) (main_arg1 : FVec F S2048x64x1024 .f32) (main_arg2 : FVec F S2x1024 .f32) (main_arg3 : IVec S64 32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64x1024 .f32 := Host.absf main_arg1
  let main_cst_0 : FVec F S_ .f32 := constant S_ .f32 0x7F800000#32
  let main_v5 : FVec F S2048x64x1024 .f32 := broadcastInDim S2048x64x1024 ![] bcast_S_S2048x64x1024 main_cst_0
  let main_v6 : IVec S2048x64x1024 1 := cmpf .olt main_v4 main_v5
  let main_c_1 : IVec S_ 1 := constantI S_ 1 1#1
  let main_v7 : IVec S_ 1 := (fun x v => Host.reduce IntOp.andi x v reducesTo_S2048x64x1024_S_d0_1_2 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  main_v13
-- ==== Kernel.lean ====
abbrev S2048x64 : Shape := ⟨2, ![2048, 64]⟩
abbrev S2048x64x1024 : Shape := ⟨3, ![2048, 64, 1024]⟩
abbrev S2x1024 : Shape := ⟨2, ![2, 1024]⟩
abbrev S64 : Shape := ⟨1, ![64]⟩
abbrev S1x64 : Shape := ⟨2, ![1, 64]⟩
abbrev S32x64x1024 : Shape := ⟨3, ![32, 64, 1024]⟩
abbrev S32x64 : Shape := ⟨2, ![32, 64]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x64, .f32⟩
  | .hbm, ⟨1, _⟩ => ⟨S2048x64x1024, .f32⟩
  | .hbm, ⟨2, _⟩ => ⟨S2x1024, .f32⟩
  | .hbm, ⟨3, _⟩ => ⟨S64, .i32⟩
  | .hbm, ⟨4, _⟩ => ⟨S1x64, .i32⟩
  | .hbm, ⟨5, _⟩ => ⟨S64, .f32⟩
  | .local _ .vmem, ⟨0, _⟩ => ⟨S32x64x1024, .f32⟩
  | .local _ .vmem, ⟨1, _⟩ => ⟨S32x64x1024, .f32⟩
  | .local _ .vmem, ⟨2, _⟩ => ⟨S32x64, .f32⟩
  | .local _ .vmem, ⟨3, _⟩ => ⟨S32x64, .f32⟩
  | .local _ .vmem, ⟨4, _⟩ => ⟨S2x1024, .f32⟩
  | .local _ .vmem, ⟨5, _⟩ => ⟨S1x64, .i32⟩
  | .local _ .vmem, ⟨6, _⟩ => ⟨S64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S32x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S64_S1x64 : S64.ShapeCasts S1x64
  inb_S64_S64_0 : ∀ a, (![0] : Fin 1 → Nat) a + S64.size a ≤ S64.size a
  h_S64 : 0 < S64.numel
  inb_S32x64x1024_S32x64x1024_0_0_0 : ∀ a, (![0, 0, 0] : Fin 3 → Nat) a + S32x64x1024.size a ≤ S32x64x1024.size a
  h_S32x64x1024 : 0 < S32x64x1024.numel
  inb_S2x1024_S2x1024_0_0 : ∀ a, (![0, 0] : Fin 2 → Nat) a + S2x1024.size a ≤ S2x1024.size a
  h_S2x1024 : 0 < S2x1024.numel
  slices_S2x1024_o0_0_S1x1024 : S2x1024.Slices ![0, 0] S1x1024
  shapeCasts_S1x1024_S1024 : S1x1024.ShapeCasts S1024
  slices_S2x1024_o1_0_S1x1024 : S2x1024.Slices ![1, 0] S1x1024
  shapeCasts_S1024_S1x1x1024 : S1024.ShapeCasts S1x1x1024
  broadcasts_S1x1x1024_S32x64x1024 : S1x1x1024.Broadcasts S32x64x1024
  reduces_S32x64x1024_S32x64 : S32x64x1024.Reduces [2] S32x64
  inb_S32x64_S32x64_0_0 : ∀ a, (![0, 0] : Fin 2 → Nat) a + S32x64.size a ≤ S32x64.size a
  h_S32x64 : 0 < S32x64.numel
  iota_S32x64_d0_w32 : S32x64.Iotas .tc 32 [0]
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S32x64 : S1x64.Broadcasts S32x64
  natLt_1_32 : 1 < 32
  shapeCasts_S64_S64 : S64.ShapeCasts S64
  reduces_S32x64_S64 : S32x64.Reduces [0] S64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x1024.size a ≤ S2048x64x1024.size a
  hwx0_0 : ∀ i : grid0.Coords, EltTy.bits .f32 = 32 ∨ (Rect.block (s := S2048x64x1024) S32x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S2048x64.size a
  hwx0_1 : ∀ i : grid0.Coords, EltTy.bits .f32 = 32 ∨ (Rect.block (s := S2048x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x1024.size a
  hwx0_2 : ∀ i : grid0.Coords, EltTy.bits .f32 = 32 ∨ (Rect.block (s := S2x1024) S2x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .i32 = 32 ∨ (Rect.block (s := S1x64) S1x64.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)

variable [Facts₀]

abbrev win0_0 : Pipeline.Window sig grid0 :=
  Pipeline.Window.ofSpec (Memref.whole main_arg1) S32x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x64x1024 : Shape := ⟨3, ![2048, 64, 1024]⟩
abbrev S2x1024 : Shape := ⟨2, ![2, 1024]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64x2 : Shape := ⟨3, ![2048, 64, 2]⟩
abbrev S2048x64x1 : Shape := ⟨3, ![2048, 64, 1]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64x1024, .f32⟩
  | .hbm, ⟨2, _⟩ => ⟨S2x1024, .f32⟩
  | .hbm, ⟨3, _⟩ => ⟨S64, .i32⟩
  | .hbm, ⟨4, _⟩ => ⟨S2048, .i32⟩
  | .hbm, ⟨5, _⟩ => ⟨S2048x1, .i32⟩
  | .hbm, ⟨6, _⟩ => ⟨S1x64, .i32⟩
  | .hbm, ⟨7, _⟩ => ⟨S2048x64, .i32⟩
  | .hbm, ⟨8, _⟩ => ⟨S2048x64, .i32⟩
  | .hbm, ⟨9, _⟩ => ⟨S2048x64, .i1⟩
  | .hbm, ⟨10, _⟩ => ⟨S2048x64x2, .f32⟩
  | .hbm, ⟨11, _⟩ => ⟨S2048x64x1, .f32⟩
  | .hbm, ⟨12, _⟩ => ⟨S2048x64, .f32⟩
  | .hbm, ⟨13, _⟩ => ⟨S2048x64x1, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S_, .f32⟩
  | .hbm, ⟨18, _⟩ => ⟨S2048x64, .f32⟩
  | .hbm, ⟨19, _⟩ => ⟨S2048x64, .f32⟩
  | .hbm, ⟨20, _⟩ => ⟨S_, .f32⟩
  | .hbm, ⟨21, _⟩ => ⟨S2048x64, .f32⟩
  | .hbm, ⟨22, _⟩ => ⟨S2048x64, .f32⟩
  | .hbm, ⟨23, _⟩ => ⟨S_, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x64, .f32⟩
  | .hbm, ⟨31, _⟩ => ⟨S_, .f32⟩
  | .hbm, ⟨32, _⟩ => ⟨S2048x64, .f32⟩
  | .hbm, ⟨33, _⟩ => ⟨S2048x64, .f32⟩
  | .hbm, ⟨34, _⟩ => ⟨S_, .f32⟩
  | .hbm, ⟨35, _⟩ => ⟨S2048x64, .f32⟩
  | .hbm, ⟨36, _⟩ => ⟨S2048x64, .f32⟩
  | .hbm, ⟨37, _⟩ => ⟨S_, .f32⟩
  | .hbm, ⟨38, _⟩ => ⟨S_, .f32⟩
  | .hbm, ⟨39, _⟩ => ⟨S2048x64, .f32⟩
  | .hbm, ⟨40, _⟩ => ⟨S2048x64, .f32⟩
  | .hbm, ⟨41, _⟩ => ⟨S_, .f32⟩
  | .hbm, ⟨42, _⟩ => ⟨S64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  slices_S2048x64x2_S2048x64x1_0_0_0 : S2048x64x2.Slices ![0, 0, 0] S2048x64x1
  shapeCasts_S2048x64x1_S2048x64 : S2048x64x1.ShapeCasts S2048x64
  slices_S2048x64x2_S2048x64x1_0_0_1 : S2048x64x2.Slices ![0, 0, 1] S2048x64x1
  bcast_S_S2048x64 : S_.BroadcastsInDim S2048x64 (![] : Fin 0 → Fin S2048x64.rank)
  reducesTo_S2048x64_S64_d0 : S2048x64.ReducesTo [0] S64
  h_S_ : 0 < S_.numel
  dot_S2048x64x1024_S2x1024_S2048x64x2_2_1_01_0_n_n_wf : DotDims.WF S2048x64x1024 S2x1024 S2048x64x2 [2] [1] [0, 1] [0] [] []

variable [Facts₀]

def dot_S2048x64x1024_S2x1024_S2048x64x2_2_1_01_0_n_n : DotDims S2048x64x1024 S2x1024 S2048x64x2 where
  lhsContracting := [2]
  rhsContracting := [1]
  lhsNonContracting := [0, 1]
  rhsNonContracting := [0]
  lhsBatch := []
  rhsBatch := []
  wf := dot_S2048x64x1024_S2x1024_S2048x64x2_2_1_01_0_n_n_wf

class Facts : Prop extends Facts₀ where

variable [Facts]
-- ==== Proof.Cell.lean ====
/-
  The mathematics both programs share, with no program in sight.

  A position (t, n) of the [2048, 64] grid carries the Gaussian negative log-likelihood
  `cell y μ z = ½ · (log v + (y − μ)² / v) + ½·log 2π` with the variance `v = max (σ z) ε`, `σ` the
  logistic function, where `μ` and `z` are the two inner products of the position's row of `x` with the two
  rows of `W`. A position counts when `t < lens n`: its weight `keep b` is the comparison bit `b` read as the
  number 0 or 1. Multiplying by that weight and selecting between the value and zero are the same on every
  extended real, the infinities included, because `a · 0 = 0` and `a · 1 = a` hold there without exception.
  Last, a sum over the 2048 time steps is the sum over 64 blocks of the sums over each block's 32 steps.
-/
import Idealize.ShloMosaic.PureOps.Ideal
import Idealize.ShloMosaic.Lib.ValueIdx
import Mathlib.Algebra.BigOperators.Intervals
import Mathlib.Algebra.BigOperators.Fin

noncomputable section

namespace Cert.Nll

open Idealize.ShloMosaic Idealize.ShloMosaic.ValueIdx

/-- The variance of a position: the logistic of its second inner product, clamped below by `ε`. -/
def var (z : EReal) : EReal := max (Ideal.logistic z) (Ideal.ofBits .f32 0x358637BD#32)

/-- The negative log-likelihood of the observation `y` under mean `μ` and variance `var z`. -/
def cell (y μ z : EReal) : EReal :=
  Ideal.ofBits .f32 0x3F000000#32 * (Ideal.log (var z) + Ideal.div ((y - μ) * (y - μ)) (var z))
    + Ideal.ofBits .f32 0x3F6B3F8E#32

/-- A comparison bit as a number: 0 or 1. -/
def keep (b : BitVec 1) : EReal := (((b.setWidth 32).toInt : ℝ) : EReal)

theorem bit_cases (b : BitVec 1) : b = 0#1 ∨ b = 1#1 := by
  have h : b.toNat < 2 := b.isLt
  rcases (by omega : b.toNat = 0 ∨ b.toNat = 1) with h0 | h1
  · exact Or.inl (BitVec.eq_of_toNat_eq h0)
  · exact Or.inr (BitVec.eq_of_toNat_eq h1)

theorem keep_zero : keep 0#1 = 0 := by
  unfold keep
  rw [show ((0#1 : BitVec 1).setWidth 32).toInt = 0 from by decide]
  norm_num

theorem keep_one : keep 1#1 = 1 := by
  unfold keep
  rw [show ((1#1 : BitVec 1).setWidth 32).toInt = 1 from by decide]
  norm_num

/-- Selecting `a` or zero by a bit is the product of `a` with the bit's number, on every extended real. -/
theorem select_eq_mul_keep (b : BitVec 1) (a : EReal) : Scalar.select b a 0 = a * keep b := by
  rcases bit_cases b with rfl | rfl
  · rw [keep_zero, mul_zero]; rfl
  · rw [keep_one, mul_one]; rfl

/-- A sum over `n · J` consecutive naturals, block by block. -/
theorem sum_range_blocks {β : Type*} [AddCommMonoid β] (J : ℕ) (g : ℕ → β) :
    ∀ n : ℕ, ∑ k ∈ Finset.range (n * J), g k = ∑ s ∈ Finset.range n, ∑ r ∈ Finset.range J, g (J * s + r)
  | 0 => by simp
  | n + 1 => by
    rw [Nat.succ_mul, Finset.sum_range_add, sum_range_blocks J g n, Finset.sum_range_succ, Nat.mul_comm n J]

/-- A sum over the 2048 time steps is the sum over the 64 blocks of the sums over each block's 32 steps;
    `f` is given on every natural so that no bound has to travel with the summand. -/
theorem sum_steps_blocks {β : Type*} [AddCommMonoid β] (f : ℕ → β) :
    ∑ k : Fin 2048, f k.val = ∑ s ∈ Finset.range 64, ∑ r : Fin 32, f (32 * s + r.val) := by
  rw [Fin.sum_univ_eq_sum_range (fun k => f k) 2048, show (2048 : ℕ) = 64 * 32 from rfl, sum_range_blocks 32 f 64]
  refine Finset.sum_congr rfl fun s _ => ?_
  rw [Fin.sum_univ_eq_sum_range (fun r => f (32 * s + r)) 32]

/-- The masked loss of time step `T` for sequence `n`, as a function of the four arguments: the observations `Y`,
    the features `X`, the two weight rows `W` and the lengths `L`. It is zero past the last step, so that it is
    defined on every natural. -/
def term (Y : (⟨2, ![2048, 64]⟩ : Shape).Idx → EReal) (X : (⟨3, ![2048, 64, 1024]⟩ : Shape).Idx → EReal)
    (W : (⟨2, ![2, 1024]⟩ : Shape).Idx → EReal) (L : (⟨1, ![64]⟩ : Shape).Idx → BitVec 32) (n : Fin 64) (T : ℕ) : EReal :=
  if h : T < 2048 then
    cell (Y (ix2 ⟨T, h⟩ n)) (∑ d : Fin 1024, X (ix3 ⟨T, h⟩ n d) * W (ix2 0 d)) (∑ d : Fin 1024, X (ix3 ⟨T, h⟩ n d) * W (ix2 1 d))
      * keep (IntOp.cmpi .slt (BitVec.ofNat 32 T) (L (ix1 n)))
  else 0

/-- What both programs compute: for each sequence, the sum of its masked losses over the 2048 time steps. -/
def total (Y : (⟨2, ![2048, 64]⟩ : Shape).Idx → EReal) (X : (⟨3, ![2048, 64, 1024]⟩ : Shape).Idx → EReal)
    (W : (⟨2, ![2, 1024]⟩ : Shape).Idx → EReal) (L : (⟨1, ![64]⟩ : Shape).Idx → BitVec 32) :
    (⟨1, ![64]⟩ : Shape).Idx → EReal :=
  fun i => 0 + ∑ k : Fin 2048, term Y X W L (i 0) k.val

/-- The same sums taken block by block, 64 blocks of 32 steps. -/
theorem total_blocks (Y : (⟨2, ![2048, 64]⟩ : Shape).Idx → EReal) (X : (⟨3, ![2048, 64, 1024]⟩ : Shape).Idx → EReal)
    (W : (⟨2, ![2, 1024]⟩ : Shape).Idx → EReal) (L : (⟨1, ![64]⟩ : Shape).Idx → BitVec 32) (i : (⟨1, ![64]⟩ : Shape).Idx) :
    total Y X W L i = 0 + ∑ s ∈ Finset.range 64, ∑ r : Fin 32, term Y X W L (i 0) (32 * s + r.val) := by
  unfold total
  rw [sum_steps_blocks (term Y X W L (i 0))]

end Cert.Nll

end
-- ==== Proof.RefCell.lean ====
/-
  The reference at one position. Its masked loss array, read at (t, n), is `cell` of the observation, of the two
  inner products of row (t, n) of `x` with the rows of `W`, times the weight of the bit `t < lens n`: the
  einsum's entry (t, n, k) is the inner product with row k, the reference spells the logistic function as
  `1 / (1 + exp (−z))`, which is what the logistic function is on the extended reals, and its select against
  zero is the product with the bit's number.
-/
import proofs.«177725_j82325933130458_1_alg».proof.Proof.Gen.ReferenceIdeal.Read
import proofs.«177725_j82325933130458_1_alg».proof.Proof.Cell
import Idealize.ShloMosaic.Lib.IdealHost

noncomputable section

namespace Cert.Nll.Ref

open Cert.ReferenceIdeal Cert.ReferenceIdeal.Gen Cert.ReferenceIdeal.Read
open Idealize.ShloMosaic Idealize.ShloMosaic.ValueIdx

variable (x0 : (⟨S2048x64, .f32⟩ : BufTy).Contents (Elt Ideal)) (x1 : (⟨S2048x64x1024, .f32⟩ : BufTy).Contents (Elt Ideal))
  (x2 : (⟨S2x1024, .f32⟩ : BufTy).Contents (Elt Ideal)) (x3 : (⟨S64, .i32⟩ : BufTy).Contents (Elt Ideal))

/-- Entry (t, n, k) of the einsum: row (t, n) of `x` against row k of `W`. -/
theorem dot_at (t : Fin 2048) (n : Fin 64) (k : Fin 2) :
    val_main_v6 (F := Ideal) x1 x2 (ix3 t n k) = ∑ d : Fin 1024, x1 (ix3 t n d) * x2 (ix2 k d) := by
  rw [val_main_v6_apply]
  refine Finset.sum_congr rfl fun d _ => ?_
  have el : lidx_main_v6 (ix3 t n k) d = ix3 t n d := funext fun a => Fin.ext (by
    match a with
    | ⟨0, _⟩ => rfl
    | ⟨1, _⟩ => rfl
    | ⟨2, _⟩ => rfl)
  have er : ridx_main_v6 (ix3 t n k) d = ix2 k d := funext fun a => Fin.ext (by
    match a with
    | ⟨0, _⟩ => rfl
    | ⟨1, _⟩ => rfl)
  rw [el, er]

/-- The mean array at (t, n): the einsum's entry (t, n, 0). -/
theorem mean_at (t : Fin 2048) (n : Fin 64) :
    val_main_v8 (F := Ideal) x1 x2 (ix2 t n) = ∑ d : Fin 1024, x1 (ix3 t n d) * x2 (ix2 0 d) := by
  have e : idx_main_v7 (idx_main_v8 (ix2 t n)) = ix3 t n 0 := funext fun a => Fin.ext (by
    have ht := t.isLt; have hn := n.isLt
    match a with
    | ⟨0, _⟩ => show (t.val * 64 + n.val) / 64 = t.val; omega
    | ⟨1, _⟩ => show (t.val * 64 + n.val) / 1 % 64 = n.val; omega
    | ⟨2, _⟩ => rfl)
  rw [val_main_v8_apply, val_main_v7_apply, e, dot_at]

/-- The logit array at (t, n): the einsum's entry (t, n, 1). -/
theorem logit_at (t : Fin 2048) (n : Fin 64) :
    val_main_v10 (F := Ideal) x1 x2 (ix2 t n) = ∑ d : Fin 1024, x1 (ix3 t n d) * x2 (ix2 1 d) := by
  have e : idx_main_v9 (idx_main_v10 (ix2 t n)) = ix3 t n 1 := funext fun a => Fin.ext (by
    have ht := t.isLt; have hn := n.isLt
    match a with
    | ⟨0, _⟩ => show (t.val * 64 + n.val) / 64 = t.val; omega
    | ⟨1, _⟩ => show (t.val * 64 + n.val) / 1 % 64 = n.val; omega
    | ⟨2, _⟩ => rfl)
  rw [val_main_v10_apply, val_main_v9_apply, e, dot_at]

/-- The comparison bit at (t, n): `t < lens n`, signed, on 32-bit words. -/
theorem bit_at (t : Fin 2048) (n : Fin 64) :
    val_main_v5 (F := Ideal) x3 (ix2 t n) = IntOp.cmpi .slt (BitVec.ofNat 32 t.val) (x3 (ix1 n)) := by
  have e : idx_main_v2 (idx_main_v4 (ix2 t n)) = ix1 n := funext fun a => Fin.ext (by
    match a with
    | ⟨0, _⟩ => rfl)
  rw [val_main_v5_apply, val_main_v3_apply, val_main_v1_apply, val_main_v0_apply, val_main_v4_apply, val_main_v2_apply, e]

/-- The unmasked loss at (t, n). -/
theorem loss_at (t : Fin 2048) (n : Fin 64) :
    val_main_v27 (F := Ideal) x0 x1 x2 (ix2 t n)
      = cell (x0 (ix2 t n)) (∑ d : Fin 1024, x1 (ix3 t n d) * x2 (ix2 0 d)) (∑ d : Fin 1024, x1 (ix3 t n d) * x2 (ix2 1 d)) := by
  simp only [val_main_v27_apply, val_main_v25_apply, val_main_v26_apply, val_main_cst_3_apply, val_main_v24_apply,
    val_main_cst_2_apply, val_main_v23_apply, val_main_v19_apply, val_main_v22_apply, val_main_v21_apply, val_main_v20_apply,
    val_main_v18_apply, val_main_v17_apply, val_main_cst_1_apply, val_main_v16_apply, val_main_v15_apply, val_main_cst_0_apply,
    val_main_v14_apply, val_main_v13_apply, val_main_cst_apply, val_main_v12_apply, val_main_v11_apply, mean_at, logit_at,
    Ideal.ofBits_def, Ideal.addf_def, Ideal.subf_def, Ideal.mulf_def, Ideal.hostDivf_def, Ideal.maximumf_def,
    Ideal.hostUnary_log_def, Ideal.hostUnary_exp_def, Ideal.hostNegf_def, Ideal.negf_def, Ideal.ofBits_one_f32]
  rfl

/-- The masked loss at (t, n): the loss times the weight of the bit `t < lens n`. -/
theorem masked_at (t : Fin 2048) (n : Fin 64) :
    val_main_v28 (F := Ideal) x0 x1 x2 x3 (ix2 t n)
      = cell (x0 (ix2 t n)) (∑ d : Fin 1024, x1 (ix3 t n d) * x2 (ix2 0 d)) (∑ d : Fin 1024, x1 (ix3 t n d) * x2 (ix2 1 d))
        * keep (IntOp.cmpi .slt (BitVec.ofNat 32 t.val) (x3 (ix1 n))) := by
  rw [val_main_v28_apply, val_main_call0_v1_apply, val_main_call0_v0_apply, val_main_cst_4_apply, Ideal.ofBits_def,
    Ideal.ofBits_zero_f32, select_eq_mul_keep, loss_at, bit_at]

/-- The reference's result: for each sequence, zero plus the sum over the time steps of the masked losses. -/
theorem total_eq : val_main_v29 (F := Ideal) x0 x1 x2 x3 = total x0 x1 x2 x3 := by
  funext i
  obtain ⟨n, rfl⟩ : ∃ n : Fin 64, i = ix1 n := ⟨i 0, eq_ix1 i⟩
  rw [val_main_v29_apply, val_main_cst_5_apply, Ideal.ofBits_def, Ideal.ofBits_zero_f32]
  show _ = 0 + ∑ k : Fin 2048, term x0 x1 x2 x3 n k.val
  refine congrArg (0 + ·) (Finset.sum_congr rfl fun k _ => ?_)
  have e : idx_main_v29 (ix1 n) k = ix2 k n := funext fun a => Fin.ext (by
    match a with
    | ⟨0, _⟩ => rfl
    | ⟨1, _⟩ => rfl)
  rw [e, masked_at]
  unfold term
  rw [dif_pos k.isLt]

end Cert.Nll.Ref

end
-- ==== Proof.KerCell.lean ====
/-
  The kernel's body at one grid point, as mathematics over the point's blocks.

  The body forms, for every entry (r, n) of its [32, 64] block, the inner products of row (r, n) of the block
  of `x` with the two rows of `W` (a product with a broadcast row, summed over the 1024 lanes), then `cell`
  of the block of `y` and those two numbers, and multiplies by the number of the bit
  `r + 32·p < lens n`, `p` the grid point. The block's column sums are then added to the running output.
-/
import proofs.«177725_j82325933130458_1_alg».proof.Proof.Gen.KernelIdeal.Skeleton
import proofs.«177725_j82325933130458_1_alg».proof.Proof.Cell
import Idealize.ShloMosaic.Lib.Pipeline.Value
import Idealize.ShloMosaic.Lib.ValueIdx
import Idealize.ShloMosaic.PureOps.Ideal.Laws

noncomputable section

namespace Cert.Nll.Ker

open Cert.KernelIdeal Cert.KernelIdeal.Gen
open Idealize.ShloMosaic Idealize.ShloMosaic.ValueIdx

/-- Row `k` of `W`, taken out as a [1, 1024] slice, flattened, given two unit axes and broadcast over the block:
    at (r, n, d) it is `W` at (k, d). -/
theorem wrow_at (w : S2x1024.Idx → EReal) (k : Fin 2) (off : Fin 2 → ℕ) (hoff0 : off 0 = k.val) (hoff1 : off 1 = 0)
    (h1 : S2x1024.Slices off S1x1024) (h2 : S1x1024.ShapeCasts S1024) (h3 : S1024.ShapeCasts S1x1x1024)
    (h4 : S1x1x1024.Broadcasts S32x64x1024) (r : Fin 32) (n : Fin 64) (d : Fin 1024) :
    broadcastTo S32x64x1024 (shapeCast S1x1x1024 (shapeCast S1024 (extractStridedSlice S1x1024 off w h1) h2) h3) h4 (ix3 r n d)
      = w (ix2 k d) := by
  rw [broadcastTo_apply _ h4 (ix3 r n d) (ix3 0 0 d) (fun a => by
      match a with
      | ⟨0, _⟩ => show 0 = if (1 : ℕ) = 1 then 0 else _; rw [if_pos rfl]
      | ⟨1, _⟩ => show 0 = if (1 : ℕ) = 1 then 0 else _; rw [if_pos rfl]
      | ⟨2, _⟩ => show d.val = if (1024 : ℕ) = 1 then 0 else d.val; rw [if_neg (by decide)]),
    shapeCast_apply _ h3 (ix3 0 0 d) (ix1 d) (by
      rewrite [Shape.rowMajor_val_one, Shape.rowMajor_val_three]; show d.val = (0 * 1 + 0) * 1024 + d.val; omega),
    shapeCast_apply _ h2 (ix1 d) (ix2 0 d) (by
      rewrite [Shape.rowMajor_val_two, Shape.rowMajor_val_one]; show 0 * 1024 + d.val = d.val; omega),
    extractStridedSlice_apply off w h1 (ix2 0 d) (ix2 k d) (fun a => by
      match a with
      | ⟨0, _⟩ => show k.val = off 0 + 0; omega
      | ⟨1, _⟩ => show d.val = off 1 + d.val; omega)]

/-- The lengths, a [1, 64] block broadcast over the 32 rows: at (r, n) it is the length of sequence `n`. -/
theorem lens_at (l : S1x64.Idx → BitVec 32) (h1 : S1x64.ShapeCasts S1x64) (h2 : S1x64.Broadcasts S32x64)
    (r : Fin 32) (n : Fin 64) :
    broadcastTo S32x64 (shapeCast S1x64 l h1) h2 (ix2 r n) = l (ix2 0 n) := by
  rw [shapeCast_self, broadcastTo_apply _ h2 (ix2 r n) (ix2 0 n) (fun a => by
      match a with
      | ⟨0, _⟩ => show 0 = if (1 : ℕ) = 1 then 0 else _; rw [if_pos rfl]
      | ⟨1, _⟩ => show n.val = if (64 : ℕ) = 1 then 0 else n.val; rw [if_neg (by decide)])]

/-- The row counter of the block: at (r, n) it is `r`. -/
theorem iota_at (h : S32x64.Iotas .tc 32 [0]) (r : Fin 32) (n : Fin 64) :
    iota .tc S32x64 32 [0] h (ix2 r n) = BitVec.ofNat 32 r.val := by
  show BitVec.ofNat 32 (0 * 32 + r.val) = _
  rw [Nat.zero_mul, Nat.zero_add]

/-- A sum over the 1024 lanes of a [32, 64, 1024] value, at (r, n). -/
theorem lane_sum (v : FVec Ideal S32x64x1024 .f32) (h : S32x64x1024.Reduces [2] S32x64) (hφ : FTy.f32 = FTy.f32 ∨ FTy.f32 = FTy.bf16)
    (hacc : (0x00000000#32 : BitVec 32) = 0x00000000#32) (r : Fin 32) (n : Fin 64) :
    multiReduction .add [2] S32x64 v 0x00000000#32 h hφ hacc (ix2 r n) = ∑ d : Fin 1024, v (ix3 r n d) :=
  (Ideal.multiReduction_add_single v 0x00000000#32 h hφ hacc (ix2 r n)).trans
    (Finset.sum_congr rfl fun d _ => congrArg v (funext fun a => Fin.ext (by
      match a with
      | ⟨0, _⟩ => rfl
      | ⟨1, _⟩ => rfl
      | ⟨2, _⟩ => rfl)))

/-- A sum over the 32 rows of a [32, 64] value, at n. -/
theorem row_sum (v : FVec Ideal S32x64 .f32) (h : S32x64.Reduces [0] S64) (hφ : FTy.f32 = FTy.f32 ∨ FTy.f32 = FTy.bf16)
    (hacc : (0x00000000#32 : BitVec 32) = 0x00000000#32) (n : Fin 64) :
    multiReduction .add [0] S64 v 0x00000000#32 h hφ hacc (ix1 n) = ∑ r : Fin 32, v (ix2 r n) :=
  (Ideal.multiReduction_add_single v 0x00000000#32 h hφ hacc (ix1 n)).trans
    (Finset.sum_congr rfl fun r _ => congrArg v (funext fun a => Fin.ext (by
      match a with
      | ⟨0, _⟩ => rfl
      | ⟨1, _⟩ => rfl)))

theorem log_at {s : Shape} (a : FVec Ideal s .f32) (i : s.Idx) : log a i = Ideal.log (a i) := rfl
theorem logistic_at {s : Shape} (a : FVec Ideal s .f32) (i : s.Idx) : logistic a i = Ideal.logistic (a i) := rfl
theorem cmpi_at {s : Shape} (p : CmpIPredicate) (a b : IVec s 32) (i : s.Idx) : cmpi p a b i = IntOp.cmpi p (a i) (b i) := rfl
theorem addi_at {s : Shape} (a b : IVec s 32) (i : s.Idx) : addi a b i = a i + b i := rfl

/-- The body's block of masked losses at entry (r, n), grid point `p`. -/
theorem pay3_at (p : grid0.Coords) (xb : Vec Ideal S32x64x1024 .f32) (wb : Vec Ideal S2x1024 .f32) (yb : Vec Ideal S32x64 .f32)
    (lb : Vec Ideal S1x64 .i32) (r : Fin 32) (n : Fin 64) :
    k0_pay3 (F := Ideal) p xb wb yb lb (ix2 r n)
      = Cert.Nll.cell (yb (ix2 r n)) (∑ d : Fin 1024, xb (ix3 r n d) * wb (ix2 0 d)) (∑ d : Fin 1024, xb (ix3 r n d) * wb (ix2 1 d))
        * Cert.Nll.keep (IntOp.cmpi .slt (BitVec.ofNat 32 r.val + BitVec.ofNat 32 (p 0).val * 32#32) (lb (ix2 0 n))) := by
  unfold k0_pay3
  dsimp only
  simp only [mulf_apply, addf_apply, subf_apply, divf_apply, maximumf_apply, broadcast_apply, sitofp_apply, extui_apply,
    log_at, logistic_at, cmpi_at, addi_at, lens_at]
  rw [iota_at, lane_sum, lane_sum]
  simp only [mulf_apply, wrow_at wb 0 ![0, 0] rfl rfl, wrow_at wb 1 ![1, 0] rfl rfl]
  rfl

/-- The body's update of the running output at `n`: what was there plus the block's column sum. -/
theorem pay1_at (v : FVec Ideal S32x64 .f32) (acc : Vec Ideal S64 .f32) (n : Fin 64) :
    k0_pay1 (F := Ideal) v acc (ix1 n) = acc (ix1 n) + ∑ r : Fin 32, v (ix2 r n) := by
  unfold k0_pay1
  dsimp only
  rw [addf_apply, shapeCast_self, row_sum]

/-- The output's first contents: zero. -/
theorem pay2_at (n : Fin 64) : k0_pay2 (F := Ideal) (ix1 n) = 0 := by
  unfold k0_pay2
  exact Ideal.ofBits_zero_f32

end Cert.Nll.Ker

end
-- ==== Proof.KerFold.lean ====
/-
  The kernel's result as sums over blocks.

  Grid point `p` sees rows `32·p … 32·p + 31` of `x` and `y`, the whole of `W` and the lengths as a [1, 64]
  array. Its body adds to the output, at sequence `n`, the sum over the block's 32 rows of the masked losses; the
  output starts at zero at the first point. So after the last point the output at `n` is zero plus the sum over the
  64 points of the sums over each point's 32 rows of `term` at time step `32·p + r`.
-/
import proofs.«177725_j82325933130458_1_alg».proof.Proof.Gen.KernelIdeal.Value
import proofs.«177725_j82325933130458_1_alg».proof.Proof.KerCell
import Idealize.ShloMosaic.Lib.StableHlo.Run

noncomputable section

namespace Cert.Nll.Ker

open Cert.KernelIdeal Cert.KernelIdeal.Gen Cert.KernelIdeal.Value
open Idealize.ShloMosaic Idealize.ShloMosaic.TcCoe Idealize.ShloMosaic.ValueIdx Idealize.SL.Sem

variable (m : (ℓ : Loc nD τ sig) → Buf (Elt Ideal) ℓ)

/-! ## The arguments and the blocks, at their literal types -/

/-- The observations `y`. -/
abbrev Yarr (c : Dev nD) : S2048x64.Idx → EReal := m ((c : Thread nD τ).loc main_arg0)
/-- The features `x`. -/
abbrev Xarr (c : Dev nD) : S2048x64x1024.Idx → EReal := m ((c : Thread nD τ).loc main_arg1)
/-- The two weight rows `W`. -/
abbrev Warr (c : Dev nD) : S2x1024.Idx → EReal := m ((c : Thread nD τ).loc main_arg2)
/-- The lengths. -/
abbrev Larr (c : Dev nD) : S64.Idx → BitVec 32 := m ((c : Thread nD τ).loc main_arg3)

/-- Point `t`'s block of `x`. -/
abbrev xblk (c : Dev nD) (t : Fin cfg0.N) : Vec Ideal S32x64x1024 .f32 := iblk m c 0 t
/-- Point `t`'s block of `y`. -/
abbrev yblk (c : Dev nD) (t : Fin cfg0.N) : Vec Ideal S32x64 .f32 := iblk m c 1 t
/-- Point `t`'s block of `W`: all of it. -/
abbrev wblk (c : Dev nD) (t : Fin cfg0.N) : Vec Ideal S2x1024 .f32 := iblk m c 2 t
/-- Point `t`'s block of the lengths: all of them, as one row. -/
abbrev lblk (c : Dev nD) (t : Fin cfg0.N) : Vec Ideal S1x64 .i32 := iblk m c 3 t

/-- The printed index maps over the grid: the blocks of `x` and `y` advance along the time axis with the point, the
    blocks of `W` and of the lengths stay put; the point's one coordinate is its number. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (grid0.coords t 0).val = t.val :=
  (by decide +kernel : ∀ t : Fin grid0.N, _)

theorem xblk_at (c : Dev nD) (t : Fin cfg0.N) (r : Fin 32) (n : Fin 64) (d : Fin 1024) (hT : 32 * t.val + r.val < 2048) :
    xblk m c t (ix3 r n d) = Xarr m c (ix3 ⟨32 * t.val + r.val, hT⟩ n d) := by
  obtain ⟨⟨e0, e1, e2⟩, -⟩ := idx_facts t
  show V m c main_arg1 (((cfg0.win 0).blk t).view.emb (ix3 r n d)) = _
  refine (congrFun (V_main_arg1 m c) _).trans (congrArg (Xarr m c) (funext fun a => Fin.ext ?_))
  match a with
  | ⟨0, _⟩ => show win0_0.index t (0 : Fin 3) * 32 + 1 * r.val = 32 * t.val + r.val; omega
  | ⟨1, _⟩ => show win0_0.index t (1 : Fin 3) * 64 + 1 * n.val = n.val; omega
  | ⟨2, _⟩ => show win0_0.index t (2 : Fin 3) * 1024 + 1 * d.val = d.val; omega

theorem yblk_at (c : Dev nD) (t : Fin cfg0.N) (r : Fin 32) (n : Fin 64) (hT : 32 * t.val + r.val < 2048) :
    yblk m c t (ix2 r n) = Yarr m c (ix2 ⟨32 * t.val + r.val, hT⟩ n) := by
  obtain ⟨-, ⟨e0, e1⟩, -⟩ := idx_facts t
  show V m c main_arg0 (((cfg0.win 1).blk t).view.emb (ix2 r n)) = _
  refine (congrFun (V_main_arg0 m c) _).trans (congrArg (Yarr m c) (funext fun a => Fin.ext ?_))
  match a with
  | ⟨0, _⟩ => show win0_1.index t (0 : Fin 2) * 32 + 1 * r.val = 32 * t.val + r.val; omega
  | ⟨1, _⟩ => show win0_1.index t (1 : Fin 2) * 64 + 1 * n.val = n.val; omega

theorem wblk_at (c : Dev nD) (t : Fin cfg0.N) (k : Fin 2) (d : Fin 1024) :
    wblk m c t (ix2 k d) = Warr m c (ix2 k d) := by
  obtain ⟨-, -, ⟨e0, e1⟩, -⟩ := idx_facts t
  show V m c main_arg2 (((cfg0.win 2).blk t).view.emb (ix2 k d)) = _
  refine (congrFun (V_main_arg2 m c) _).trans (congrArg (Warr m c) (funext fun a => Fin.ext ?_))
  match a with
  | ⟨0, _⟩ => show win0_2.index t (0 : Fin 2) * 2 + 1 * k.val = k.val; omega
  | ⟨1, _⟩ => show win0_2.index t (1 : Fin 2) * 1024 + 1 * d.val = d.val; omega

/-- The lengths as the region finds them: the host has reshaped them to one row. -/
theorem lens_row (c : Dev nD) :
    (V m c main_v0 : S1x64.Idx → BitVec 32) = shapeCast S1x64 (Larr m c) shapeCasts_S64_S1x64 := by
  dsimp only [Gen.V, Gen.hostOps0]
  after_results
  rfl

theorem lblk_at (c : Dev nD) (t : Fin cfg0.N) (n : Fin 64) :
    lblk m c t (ix2 0 n) = Larr m c (ix1 n) := by
  obtain ⟨-, -, -, ⟨e0, e1⟩, -⟩ := idx_facts t
  have hi : ((cfg0.win 3).blk t).view.emb (ix2 0 n) = (ix2 0 n : S1x64.Idx) := funext fun a => Fin.ext (by
    match a with
    | ⟨0, _⟩ => show win0_3.index t (0 : Fin 2) * 1 + 1 * 0 = 0; omega
    | ⟨1, _⟩ => show win0_3.index t (1 : Fin 2) * 64 + 1 * n.val = n.val; omega)
  show (V m c main_v0 : S1x64.Idx → BitVec 32) (((cfg0.win 3).blk t).view.emb (ix2 0 n)) = _
  rw [hi, lens_row]
  exact shapeCast_apply _ shapeCasts_S64_S1x64 (ix2 0 n) (ix1 n) (by
    rewrite [Shape.rowMajor_val_one, Shape.rowMajor_val_two]; show n.val = 0 * 64 + n.val; omega)

/-! ## One point's addend -/

/-- What point `s` adds to the output at sequence `n`: its block's column sum. Zero past the grid. -/
def addend (c : Dev nD) (s : ℕ) (n : Fin 64) : EReal :=
  if h : s < cfg0.N then
    ∑ r : Fin 32, k0_pay3 (F := Ideal) (grid0.coords ⟨s, h⟩) (xblk m c ⟨s, h⟩) (wblk m c ⟨s, h⟩) (yblk m c ⟨s, h⟩) (lblk m c ⟨s, h⟩) (ix2 r n)
  else 0

/-- The first point writes zero plus its addend. -/
theorem reset_at (c : Dev nD) (h : 0 < cfg0.N) (n : Fin 64) :
    reset4 m c 0 h (ix1 n) = 0 + addend m c 0 n := by
  unfold reset4 addend
  rw [dif_pos h]
  exact (pay1_at _ _ n).trans (congrArg (· + _) (pay2_at n))

/-- Every later point adds its addend to what is there. -/
theorem step_at (c : Dev nD) (s : ℕ) (h : s < cfg0.N) (acc : S64.Idx → EReal) (n : Fin 64) :
    step4 m c s h acc (ix1 n) = acc (ix1 n) + addend m c s n := by
  unfold step4 addend
  rw [dif_pos h]
  exact pay1_at _ _ n

/-- The word `r + 32·p` the body compares with the length is the time step's number. -/
theorem step_word (s r : ℕ) : BitVec.ofNat 32 r + BitVec.ofNat 32 s * 32#32 = BitVec.ofNat 32 (32 * s + r) := by
  apply BitVec.eq_of_toNat_eq
  simp only [BitVec.toNat_add, BitVec.toNat_mul, BitVec.toNat_ofNat]
  omega

/-- A point's addend is the sum of `term` over the point's 32 time steps. -/
theorem addend_eq (c : Dev nD) (s : ℕ) (hs : s < 64) (n : Fin 64) :
    addend m c s n = ∑ r : Fin 32, term (Yarr m c) (Xarr m c) (Warr m c) (Larr m c) n (32 * s + r.val) := by
  have h : s < cfg0.N := hs
  unfold addend
  rw [dif_pos h]
  refine Finset.sum_congr rfl fun r _ => ?_
  have hr := r.isLt
  have hT : 32 * s + r.val < 2048 := by omega
  obtain ⟨-, -, -, -, ep⟩ := idx_facts ⟨s, h⟩
  unfold term
  rw [dif_pos hT, pay3_at, yblk_at m c ⟨s, h⟩ r n hT, lblk_at, ep, step_word]
  simp only [xblk_at m c ⟨s, h⟩ r n _ hT, wblk_at]

/-! ## The fold -/

/-- The output after the last point, at sequence `n`. -/
theorem fold_at (c : Dev nD) (n : Fin 64) (h : 0 + 63 < cfg0.N) :
    Pipeline.accAt (reset4 m c) (step4 m c) 0 63 h (ix1 n)
      = 0 + ∑ s ∈ Finset.range 64, ∑ r : Fin 32, term (Yarr m c) (Xarr m c) (Warr m c) (Larr m c) n (32 * s + r.val) := by
  have key := Pipeline.accAt_add_apply (ι := S64.Idx) (β := EReal) (reset4 m c) (step4 m c) (fun _ => 0)
    (fun s i => addend m c s (i 0)) 0 63
    (fun h i => by
      obtain ⟨n, rfl⟩ : ∃ n : Fin 64, i = ix1 n := ⟨i 0, eq_ix1 i⟩
      exact reset_at m c h n)
    (fun s h acc i _ _ => by
      obtain ⟨n, rfl⟩ : ∃ n : Fin 64, i = ix1 n := ⟨i 0, eq_ix1 i⟩
      exact step_at m c s h acc n)
    63 le_rfl h (ix1 n)
  rw [key]
  refine congrArg (0 + ·) (Finset.sum_congr rfl fun s hs => ?_)
  rw [Nat.zero_add]
  exact addend_eq m c s (Finset.mem_range.mp hs) n

/-- The kernel's result array is `total` of the arguments. -/
theorem G4_eq (c : Dev nD) : G4 m c = total (Yarr m c) (Xarr m c) (Warr m c) (Larr m c) := by
  funext i
  obtain ⟨n, rfl⟩ : ∃ n : Fin 64, i = ix1 n := ⟨i 0, eq_ix1 i⟩
  have hn := n.isLt
  have hrun : run4Of (ix1 n) = 0 := by
    show 1 * (n.val / 64 - 0) = 0
    rw [Nat.div_eq_of_lt hn]
  have hloc : loc4Of (ix1 n) = ix1 n := funext fun a => Fin.ext (by
    match a with
    | ⟨0, _⟩ => show n.val % 64 = n.val; omega)
  have e : ∀ (b j : ℕ) (h : b + j < cfg0.N) (b' j' : ℕ) (h' : b' + j' < cfg0.N), b = b' → j = j' →
      Pipeline.accAt (reset4 m c) (step4 m c) b j h = Pipeline.accAt (reset4 m c) (step4 m c) b' j' h' := by
    intro b j h b' j' h' hb hj; subst hb; subst hj; rfl
  have h63 : 0 + 63 < cfg0.N := by decide
  unfold G4
  rw [dif_pos (by rw [hrun]; decide), hloc, e _ _ _ 0 63 h63 (by rw [hrun]) rfl, fold_at m c n h63, total_blocks]

end Cert.Nll.Ker

end
-- ==== Proof.lean ====
/-
  A masked Gaussian negative log-likelihood, summed over time, in two arrangements.

  For each of 64 sequences `n` both programs compute
      ∑ over the 2048 time steps t of  [t < lens n] · ( ½ · (log v + (y − μ)² / v) + ½·log 2π ),
  with `μ` and `z` the inner products of row (t, n) of `x` with the two rows of `W` and `v = max (σ z) ε`.

  The reference takes the inner products by one contraction over the feature axis, spells `σ z` as
  `1 / (1 + exp (−z))`, masks by selecting between the loss and zero, and sums over all time steps at once.
  The kernel walks the time axis in 64 blocks of 32 steps: for each block it multiplies by the broadcast rows of
  `W` and sums over the 1024 lanes, applies the logistic function, masks by multiplying with the comparison bit
  read as 0 or 1, sums the block's 32 rows and adds the result to an output that starts at zero.

  On the extended reals these are the same number: the logistic function is that quotient, a product with 0 or 1
  is the selection (`a · 0 = 0` and `a · 1 = a` for every `a`, the infinities included), and a sum over 2048 steps
  is the sum over 64 blocks of the sums over each block's 32 steps. Nothing here needs the inputs to be finite.

  `Cell` holds the shared function `total` and the regrouping of the sum; `RefCell` reads the reference's result as
  `total` of its arguments; `KerCell` reads the kernel body at one block entry; `KerFold` reads the blocks off the
  arrays and unrolls the accumulation over the grid into `total`.
-/
import proofs.«177725_j82325933130458_1_alg».proof.Defs
import proofs.«177725_j82325933130458_1_alg».proof.Proof.Gen.Kernel.Frame
import proofs.«177725_j82325933130458_1_alg».proof.Proof.Gen.KernelIdeal.Value
import proofs.«177725_j82325933130458_1_alg».proof.Proof.Gen.Pre_finite_inputs
import proofs.«177725_j82325933130458_1_alg».proof.Proof.Gen.ReferenceIdeal.Run
import proofs.«177725_j82325933130458_1_alg».proof.Proof.RefCell
import proofs.«177725_j82325933130458_1_alg».proof.Proof.KerFold
import Idealize.ShloMosaic.Adequacy
import Idealize.ShloMosaic.Init

noncomputable section

namespace Cert.Proof

open Idealize.ShloMosaic Idealize.SL.Sem

/-- The idealized kernel terminates without a fault and leaves its arguments alone: its value run, with the
    result forgotten. -/
theorem frame_KernelIdeal : frame_KernelIdeal := fun m ρ _ =>
  (θ_run Cert.KernelIdeal.defs _ _).mono (fun _ h c => (h c).2) (Cert.KernelIdeal.Value.run (F := Ideal) m ρ)

/-- The same for the reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the four arguments both programs end with `total` of those arguments in their
    result array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v29_eq, Cert.Nll.Ref.total_eq, Cert.Nll.Ker.G4_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
